-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x4 : Shape := ⟨2, ![1000000, 4]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel

variable [Facts]

def fn {F : FTy → Type} [FloatOps F] (main_arg0 : IVec S1000000x4 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  main_v3
-- ==== Kernel.lean ====
abbrev S1000000x4 : Shape := ⟨2, ![1000000, 4]⟩
abbrev S1000000x64 : Shape := ⟨2, ![1000000, 64]⟩
abbrev S1000000x1 : Shape := ⟨2, ![1000000, 1]⟩
abbrev S8000x4 : Shape := ⟨2, ![8000, 4]⟩
abbrev S8000x64 : Shape := ⟨2, ![8000, 64]⟩
abbrev S8000x1 : Shape := ⟨2, ![8000, 1]⟩
abbrev S1000000 : Shape := ⟨1, ![1000000]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S1000000x4, .i32⟩
  | .hbm, ⟨1, _⟩ => ⟨S1000000x64, .f32⟩
  | .hbm, ⟨2, _⟩ => ⟨S1000000x64, .f32⟩
  | .hbm, ⟨3, _⟩ => ⟨S1000000x1, .i32⟩
  | .hbm, ⟨4, _⟩ => ⟨S1000000, .i32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S1000000, .i1⟩
  | .local _ .vmem, ⟨0, _⟩ => ⟨S8000x4, .i32⟩
  | .local _ .vmem, ⟨1, _⟩ => ⟨S8000x4, .i32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S8000x1, .i32⟩
  | .local _ .vmem, ⟨7, _⟩ => ⟨S8000x1, .i32⟩
  | _, _ => ⟨S1000000x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8000x4_S8000x4_0_0 : ∀ a, (![0, 0] : Fin 2 → Nat) a + S8000x4.size a ≤ S8000x4.size a
  h_S8000x4 : 0 < S8000x4.numel
  slices_S8000x4_o0_0_S8000x1 : S8000x4.Slices ![0, 0] S8000x1
  slices_S8000x4_o0_1_S8000x1 : S8000x4.Slices ![0, 1] S8000x1
  slices_S8000x4_o0_2_S8000x1 : S8000x4.Slices ![0, 2] S8000x1
  inb_S8000x64_S8000x64_0_0 : ∀ a, (![0, 0] : Fin 2 → Nat) a + S8000x64.size a ≤ S8000x64.size a
  h_S8000x64 : 0 < S8000x64.numel
  natLt_1_32 : 1 < 32
  broadcasts_S8000x1_S8000x64 : S8000x1.Broadcasts S8000x64
  inb_S8000x1_S8000x1_0_0 : ∀ a, (![0, 0] : Fin 2 → Nat) a + S8000x1.size a ≤ S8000x1.size a
  h_S8000x1 : 0 < S8000x1.numel
  shapeCasts_S1000000x1_S1000000 : S1000000x1.ShapeCasts S1000000
  bcast_S_S1000000 : S_.BroadcastsInDim S1000000 (![] : Fin 0 → Fin S1000000.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S1000000x4.size a
  hwx0_0 : ∀ i : grid0.Coords, EltTy.bits .i32 = 32 ∨ (Rect.block (s := S1000000x4) S8000x4.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .f32 = 32 ∨ (Rect.block (s := S1000000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1000000x64.size a
  hwx0_2 : ∀ i : grid0.Coords, EltTy.bits .f32 = 32 ∨ (Rect.block (s := S1000000x64) S8000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x1.size a ≤ S1000000x1.size a
  hwx0_3 : ∀ i : grid0.Coords, EltTy.bits .i32 = 32 ∨ (Rect.block (s := S1000000x1) S8000x1.size (cc0_transform_3 i) (hinb0_3 i)).WholeWords (EltTy.packing .i32)

variable [Facts₀]

abbrev win0_0 : Pipeline.Window sig grid0 :=
  Pipeline.Window.ofSpec (Memref.whole main_arg0) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x4 : Shape := ⟨2, ![1000000, 4]⟩
abbrev S1000000x64 : Shape := ⟨2, ![1000000, 64]⟩
abbrev S3 : Shape := ⟨1, ![3]⟩
abbrev S1000000x3 : Shape := ⟨2, ![1000000, 3]⟩
abbrev S1x3 : Shape := ⟨2, ![1, 3]⟩
abbrev S_ : Shape := ⟨0, ![]⟩
abbrev S1000000 : Shape := ⟨1, ![1000000]⟩
abbrev S1000000x1 : Shape := ⟨2, ![1000000, 1]⟩

abbrev nBuf : Space → Nat
  | .hbm => 18
  | .vmem => 0
  | .smem => 0
  | _ => 0

abbrev bufTy : (tb : Table) → Fin (tcTables nBuf tb) → BufTy
  | .hbm, ⟨0, _⟩ => ⟨S1000000x4, .i32⟩
  | .hbm, ⟨1, _⟩ => ⟨S1000000x64, .f32⟩
  | .hbm, ⟨2, _⟩ => ⟨S3, .i32⟩
  | .hbm, ⟨3, _⟩ => ⟨S3, .i32⟩
  | .hbm, ⟨4, _⟩ => ⟨S1000000x3, .i32⟩
  | .hbm, ⟨5, _⟩ => ⟨S1x3, .i32⟩
  | .hbm, ⟨6, _⟩ => ⟨S1000000x3, .i32⟩
  | .hbm, ⟨7, _⟩ => ⟨S1000000x3, .i1⟩
  | .hbm, ⟨8, _⟩ => ⟨S1x3, .i32⟩
  | .hbm, ⟨9, _⟩ => ⟨S1000000x3, .i32⟩
  | .hbm, ⟨10, _⟩ => ⟨S1000000x3, .i1⟩
  | .hbm, ⟨11, _⟩ => ⟨S1000000x3, .i1⟩
  | .hbm, ⟨12, _⟩ => ⟨S_, .i1⟩
  | .hbm, ⟨13, _⟩ => ⟨S1000000, .i1⟩
  | .hbm, ⟨14, _⟩ => ⟨S1000000x1, .i1⟩
  | .hbm, ⟨15, _⟩ => ⟨S1000000x1, .f32⟩
  | .hbm, ⟨16, _⟩ => ⟨S1000000x64, .f32⟩
  | .hbm, ⟨17, _⟩ => ⟨S1000000x64, .f32⟩
  | _, _ => ⟨S1000000x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  slices_S1000000x4_S1000000x3_0_0 : S1000000x4.Slices ![0, 0] S1000000x3
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  reducesTo_S1000000x3_S1000000_d1 : S1000000x3.ReducesTo [1] S1000000
  h_S_ : 0 < S_.numel
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)

variable [Facts₀]

class Facts : Prop extends Facts₀ where

variable [Facts]
-- ==== Proof.CropSpec.lean ====
/-
  What a sparse crop computes, stated once and free of either program.

  A point is a row of four coordinate words; its first three are spatial. The point is KEPT when each spatial word w
  satisfies 10 ≤ w < 90 as a signed number. The two results are
    * the features with every dropped row zeroed: feats[r, j] · (1 if row r is kept, else 0), the factor being the
      keep bit read as an unsigned number;
    * the keep bit of every row.
  Both programs compute the same six comparisons and conjoin them; they differ only in how the conjunction is
  associated (and the reference starts its fold from the neutral bit 1), which is associativity of the bitwise and on
  one-bit words.
-/
import Idealize.ShloMosaic.PureOps.Ideal
import Idealize.ShloMosaic.PureOps.Reduce
import Idealize.ShloMosaic.Lib.ValueIdx
import Idealize.ShloMosaic.Lib.KernelVsHost

noncomputable section

namespace Cert.Crop

open Idealize.ShloMosaic Idealize.ShloMosaic.ValueIdx

/-- The array of coordinate words: a million rows of four. -/
abbrev Coords : Type := (⟨2, ![1000000, 4]⟩ : Shape).Idx → BitVec 32

/-- One coordinate word lies in the half-open range [10, 90), compared signed. -/
def inBox (w : BitVec 32) : BitVec 1 := IntOp.andi (IntOp.cmpi .sge w 10#32) (IntOp.cmpi .slt w 90#32)

/-- The keep bit of three spatial words: the six comparisons conjoined from the left. -/
def keepW (x y z : BitVec 32) : BitVec 1 :=
  IntOp.andi (IntOp.andi (IntOp.andi (IntOp.andi (IntOp.andi (IntOp.cmpi .sge x 10#32) (IntOp.cmpi .slt x 90#32))
    (IntOp.cmpi .sge y 10#32)) (IntOp.cmpi .slt y 90#32)) (IntOp.cmpi .sge z 10#32)) (IntOp.cmpi .slt z 90#32)

/-- Conjoining six bits from the left is conjoining three pairs from the right onto the neutral bit. -/
theorem and6_assoc : ∀ a b c d e f : BitVec 1,
    ((((a &&& b) &&& c) &&& d) &&& e) &&& f = (a &&& b) &&& ((c &&& d) &&& ((e &&& f) &&& 1#1)) := by decide

/-- The keep bit is the conjunction of the three per-word range tests, folded from the neutral bit. -/
theorem keepW_eq_boxes (x y z : BitVec 32) :
    keepW x y z = IntOp.andi (inBox x) (IntOp.andi (inBox y) (IntOp.andi (inBox z) 1#1)) :=
  and6_assoc _ _ _ _ _ _

/-- A commutative, associative fold over the three coordinates of an axis of extent 3, written out. -/
theorem fold_fin3 {α : Type} (op : α → α → α) [Std.Commutative op] [Std.Associative op] (b : α) (f : Fin 3 → α) :
    (Finset.univ : Finset (Fin 3)).fold op b f = op (f 0) (op (f 1) (op (f 2) b)) := by
  have h : (Finset.univ : Finset (Fin 3)) = insert 0 (insert 1 {2}) := by decide
  rw [h, Finset.fold_insert (by decide), Finset.fold_insert (by decide), Finset.fold_singleton]

/-- The keep bit of row `r`: its words in columns 0, 1 and 2 all lie in [10, 90). -/
def keepRow (a : Coords) (r : Fin 1000000) : BitVec 1 :=
  keepW (a (ix2 r (0 : Fin 4))) (a (ix2 r (1 : Fin 4))) (a (ix2 r (2 : Fin 4)))

/-- The cropped features: entry [r, j] times the keep bit of row `r` read as a number (0 or 1). -/
def feats (a : Coords) (f : FVec Ideal ⟨2, ![1000000, 64]⟩ .f32) : FVec Ideal ⟨2, ![1000000, 64]⟩ .f32 :=
  fun i => FloatOps.mulf (f i) (FloatOps.uitofp .f32 (keepRow a (i 0)))

/-- The keep mask, one bit a row. -/
def mask (a : Coords) : IVec ⟨1, ![1000000]⟩ 1 := fun r => keepRow a (r 0)

/-- The keep mask as a column of 32-bit words, the bit widened: what the kernel writes before the mask is
    narrowed back to bits. -/
def maskWords (a : Coords) : IVec ⟨2, ![1000000, 1]⟩ 32 := fun i => (keepRow a (i 0)).setWidth 32

/-- A bit widened to a word differs from the zero word exactly when the bit is set. -/
theorem ne_zero_widen : ∀ b : BitVec 1, IntOp.cmpi .ne (b.setWidth 32) 0#32 = b := by decide

end Cert.Crop

end
-- ==== Proof.KernelBlock.lean ====
/-
  What the kernel body stores, read at one index of a block.

  The body loads a block of 8000 rows of coordinates and the matching block of features. From the coordinate block it
  takes columns 0, 1 and 2 as three one-column slices, compares each with 10 and 90 and conjoins the six bits row by
  row: the keep bit of the row within the block. It stores (i) the feature block times that bit — widened to a word,
  converted signed to a number and broadcast along the 64 lanes — and (ii) the bit widened to a word, as a column.
  A bit widened to a word and read signed is the bit read unsigned, so (i) is the feature entry times the keep bit
  read as 0 or 1.
-/
import proofs.«163686_j42279658062072_1_alg».proof.Proof.Gen.KernelIdeal.Skeleton
import proofs.«163686_j42279658062072_1_alg».proof.Proof.CropSpec
import Idealize.ShloMosaic.Lib.Pipeline.Value

noncomputable section

namespace Cert.KernelCrop

open Cert.KernelIdeal Cert.KernelIdeal.Gen
open Idealize.ShloMosaic Idealize.ShloMosaic.ValueIdx

/-- The one-column slice at column offset 0, 1 or 2 of a coordinate block, read at row `p`, is the block at
    (p, that column). -/
theorem slice_col0 (v0 : IVec S8000x4 32) (h : S8000x4.Slices ![0, 0] S8000x1) (p : Fin 8000) (q : Fin 1) :
    extractStridedSlice S8000x1 ![0, 0] v0 h (ix2 p q) = v0 (ix2 p (0 : Fin 4)) :=
  extractStridedSlice_apply ![0, 0] v0 h (ix2 p q) (ix2 p (0 : Fin 4)) (fun a => match a with
    | ⟨0, _⟩ => by show p.val = 0 + p.val; omega
    | ⟨1, _⟩ => by have := q.isLt; show (0 : Nat) = 0 + q.val; omega)
theorem slice_col1 (v0 : IVec S8000x4 32) (h : S8000x4.Slices ![0, 1] S8000x1) (p : Fin 8000) (q : Fin 1) :
    extractStridedSlice S8000x1 ![0, 1] v0 h (ix2 p q) = v0 (ix2 p (1 : Fin 4)) :=
  extractStridedSlice_apply ![0, 1] v0 h (ix2 p q) (ix2 p (1 : Fin 4)) (fun a => match a with
    | ⟨0, _⟩ => by show p.val = 0 + p.val; omega
    | ⟨1, _⟩ => by have := q.isLt; show (1 : Nat) = 1 + q.val; omega)
theorem slice_col2 (v0 : IVec S8000x4 32) (h : S8000x4.Slices ![0, 2] S8000x1) (p : Fin 8000) (q : Fin 1) :
    extractStridedSlice S8000x1 ![0, 2] v0 h (ix2 p q) = v0 (ix2 p (2 : Fin 4)) :=
  extractStridedSlice_apply ![0, 2] v0 h (ix2 p q) (ix2 p (2 : Fin 4)) (fun a => match a with
    | ⟨0, _⟩ => by show p.val = 0 + p.val; omega
    | ⟨1, _⟩ => by have := q.isLt; show (2 : Nat) = 2 + q.val; omega)

/-- The keep bit of row `p` of a coordinate block. -/
def keepBlk (v0 : IVec S8000x4 32) (p : Fin 8000) : BitVec 1 :=
  Cert.Crop.keepW (v0 (ix2 p (0 : Fin 4))) (v0 (ix2 p (1 : Fin 4))) (v0 (ix2 p (2 : Fin 4)))

/-- The body's conjunction of the six comparisons, at row `p`, is that row's keep bit. -/
theorem bit_at (v0 : Vec Ideal S8000x4 .i32) (p : Fin 8000) (q : Fin 1) :
    k0_pay1 (F := Ideal) v0 (ix2 p q) = keepBlk v0 p := by
  unfold k0_pay1
  simp only [andi, cmpi, broadcast, slice_col0, slice_col1, slice_col2]
  rfl

/-- The widened, converted bit broadcast along the lanes reads, at (p, q), the bit column at (p, 0). -/
theorem lanes_at (x : FVec Ideal S8000x1 .f32) (h : S8000x1.Broadcasts S8000x64) (p : Fin 8000) (q : Fin 64) :
    broadcastTo S8000x64 x h (ix2 p q) = x (ix2 p (0 : Fin 1)) :=
  broadcastTo_apply x h (ix2 p q) (ix2 p (0 : Fin 1)) (fun a => match a with
    | ⟨0, _⟩ => by show p.val = if (8000 : Nat) = 1 then 0 else p.val; rw [if_neg (by decide)]
    | ⟨1, _⟩ => by show (0 : Nat) = if (1 : Nat) = 1 then 0 else q.val; rw [if_pos rfl])

/-- The stored feature block at (p, q): the loaded feature entry times row `p`'s keep bit read unsigned. -/
theorem feats_at (v0 : Vec Ideal S8000x4 .i32) (v21 : FVec Ideal S8000x64 .f32) (p : Fin 8000) (q : Fin 64) :
    k0_pay2 (F := Ideal) v0 v21 (ix2 p q) = FloatOps.mulf (v21 (ix2 p q)) (FloatOps.uitofp .f32 (keepBlk v0 p)) := by
  unfold k0_pay2
  show FloatOps.mulf (v21 (ix2 p q)) (broadcastTo S8000x64 (sitofp .f32 (extui 32 (k0_pay1 (F := Ideal) v0) natLt_1_32)) broadcasts_S8000x1_S8000x64 (ix2 p q)) = _
  rw [lanes_at, sitofp_extui_eq_uitofp]
  show FloatOps.mulf (v21 (ix2 p q)) (FloatOps.uitofp .f32 (k0_pay1 (F := Ideal) v0 (ix2 p (0 : Fin 1)))) = _
  rw [bit_at]

/-- The stored mask column at (p, q): row `p`'s keep bit widened to a word. -/
theorem word_at (v0 : Vec Ideal S8000x4 .i32) (p : Fin 8000) (q : Fin 1) :
    k0_pay3 (F := Ideal) v0 (ix2 p q) = (keepBlk v0 p).setWidth 32 := by
  unfold k0_pay3
  show (k0_pay1 (F := Ideal) v0 (ix2 p q)).setWidth 32 = _
  rw [bit_at]

/-- THE FEATURE BLOCK IS A BLOCK OF THE CROPPED FEATURES. If a coordinate block `x0` and a feature block `x1` are rows
    `T·8000 … T·8000 + 7999` of arrays `A0`, `A1`, then the stored feature block at `j` is the cropped features of
    `A0`, `A1` at the array index `i` lying over `j`. -/
theorem feats_block (A0 : Cert.Crop.Coords) (A1 : FVec Ideal S1000000x64 .f32) (x0 : Vec Ideal S8000x4 .i32)
    (x1 : FVec Ideal S8000x64 .f32) (T : Nat) (hT : T < 125)
    (h0 : ∀ (p : Fin 8000) (k : Fin 4), x0 (ix2 p k) = A0 (ix2 (⟨T * 8000 + p.val, by omega⟩ : Fin 1000000) k))
    (h1 : ∀ (p : Fin 8000) (q : Fin 64), x1 (ix2 p q) = A1 (ix2 (⟨T * 8000 + p.val, by omega⟩ : Fin 1000000) q))
    (j : S8000x64.Idx) (i : S1000000x64.Idx) (hi0 : (i 0).val = T * 8000 + (j 0).val) (hi1 : (i 1).val = (j 1).val) :
    k0_pay2 (F := Ideal) x0 x1 j = Cert.Crop.feats A0 A1 i := by
  obtain ⟨p, q, rfl⟩ : ∃ (p : Fin 8000) (q : Fin 64), j = ix2 p q := ⟨j 0, j 1, eq_ix2 j⟩
  have hb : T * 8000 + p.val < 1000000 := by have := p.isLt; omega
  have hi : i = ix2 (⟨T * 8000 + p.val, hb⟩ : Fin 1000000) q := by
    funext a; apply Fin.ext; match a with | ⟨0, _⟩ => exact hi0 | ⟨1, _⟩ => exact hi1
  rw [hi, feats_at]
  unfold keepBlk Cert.Crop.feats Cert.Crop.keepRow
  rw [h0, h0, h0, h1]

/-- THE MASK COLUMN IS A BLOCK OF THE MASK WORDS, in the same sense. -/
theorem words_block (A0 : Cert.Crop.Coords) (x0 : Vec Ideal S8000x4 .i32) (T : Nat) (hT : T < 125)
    (h0 : ∀ (p : Fin 8000) (k : Fin 4), x0 (ix2 p k) = A0 (ix2 (⟨T * 8000 + p.val, by omega⟩ : Fin 1000000) k))
    (j : S8000x1.Idx) (i : S1000000x1.Idx) (hi0 : (i 0).val = T * 8000 + (j 0).val) :
    k0_pay3 (F := Ideal) x0 j = Cert.Crop.maskWords A0 i := by
  obtain ⟨p, q, rfl⟩ : ∃ (p : Fin 8000) (q : Fin 1), j = ix2 p q := ⟨j 0, j 1, eq_ix2 j⟩
  have hb : T * 8000 + p.val < 1000000 := by have := p.isLt; omega
  have hi : i 0 = (⟨T * 8000 + p.val, hb⟩ : Fin 1000000) := Fin.ext hi0
  rw [word_at]
  unfold keepBlk Cert.Crop.maskWords Cert.Crop.keepRow
  rw [h0, h0, h0, hi]

end Cert.KernelCrop

end
-- ==== Proof.KernelValue.lean ====
/-
  The kernel's two result arrays as functions of its arguments.

  The grid has 125 points; at point `t` every window's block is rows `t·8000 … t·8000 + 7999` of its array, all
  columns. So the coordinate and feature blocks the body loads are those rows of the two arguments, what the body
  stores is those rows of the cropped features and of the mask words (the body's stores read at an index), and
  since every row lies in exactly the block `row / 8000`, the blocks written back cover both output arrays: after the
  region the feature output holds the cropped features and the word output the mask widened to words.
  The lines after the region flatten the word column, compare every word with zero and keep the resulting bit: a
  widened bit differs from zero exactly when it is set, so the second result is the mask itself.
-/
import proofs.«163686_j42279658062072_1_alg».proof.Proof.Gen.KernelIdeal.Frame
import proofs.«163686_j42279658062072_1_alg».proof.Proof.KernelBlock
import Idealize.ShloMosaic.Lib.Pipeline.Value
import Idealize.ShloMosaic.Lib.StableHlo.Run

set_option maxRecDepth 16384

noncomputable section

namespace Cert.KernelCrop

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- At point `t` every window's block index is (t, 0): decided over the 125 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 125 := by
  have h := t.isLt
  have e : cfg0.N = 125 := N_0
  omega

/-- The coordinate block at point `t` is rows `t·8000 …` of the coordinate argument. -/
theorem coords_block (c : Dev nD) (t : Fin cfg0.N) (p : Fin 8000) (k : Fin 4) :
    iblk m c 0 t (ix2 p k) = V m c main_arg0 (ix2 (⟨t.val * 8000 + p.val, by have := point_lt t; omega⟩ : Fin 1000000) k) := by
  obtain ⟨e00, e01, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 8000 + 1 * p.val = t.val * 8000 + p.val; omega
  | ⟨1, _⟩ => show win0_0.index t (1 : Fin 2) * 4 + 1 * k.val = k.val; omega

/-- The feature block at point `t` is rows `t·8000 …` of the feature argument. -/
theorem feats_block_in (c : Dev nD) (t : Fin cfg0.N) (p : Fin 8000) (q : Fin 64) :
    iblk m c 1 t (ix2 p q) = V m c main_arg1 (ix2 (⟨t.val * 8000 + p.val, by have := point_lt t; omega⟩ : Fin 1000000) q) := by
  obtain ⟨-, -, e10, e11, -⟩ := idx_facts t
  show V m c main_arg1 (((cfg0.win 1).blk t).view.emb (ix2 p q)) = _
  refine congrArg (V m c main_arg1) (funext fun a => Fin.ext ?_)
  match a with
  | ⟨0, _⟩ => show win0_1.index t (0 : Fin 2) * 8000 + 1 * p.val = t.val * 8000 + p.val; omega
  | ⟨1, _⟩ => show win0_1.index t (1 : Fin 2) * 64 + 1 * q.val = q.val; omega

/-! ## The feature output -/

/-- What point `t` writes back to the feature output is block `t` of the cropped features of the arguments. -/
theorem flushed_feats (c : Dev nD) (t : Fin cfg0.N) :
    (dats m 0 c).flushed 2 t
      = ((cfg0.win 2).blk t).view.read (Elt Ideal) (Cert.Crop.feats (V m c main_arg0) (V m c main_arg1)) := by
  show (cfg0.win 2).cut (grid0.coords t) ((dats m 0 c).after 2 t) = _
  rw [after0_2]
  unfold out0_2
  rw [View.canon_unit_zero hz]
  simp only [View.ld_unit_zero (S := S8000x4) hz, View.ld_unit_zero (S := S8000x64) hz]
  obtain ⟨-, -, -, -, e20, e21, -⟩ := idx_facts t
  funext j
  exact feats_block (V m c main_arg0) (V m c main_arg1) (iblk m c 0 t) (iblk m c 1 t) t.val (point_lt t)
    (fun p k => coords_block m c t p k) (fun p q => feats_block_in m c t p q) j (((cfg0.win 2).blk t).view.emb j)
    (by show win0_2.index t (0 : Fin 2) * 8000 + 1 * (j 0).val = t.val * 8000 + (j 0).val; omega)
    (by show win0_2.index t (1 : Fin 2) * 64 + 1 * (j 1).val = (j 1).val; omega)

/-- An index of the feature output is in point `t`'s block iff each coordinate is in the block's range on its axis. -/
theorem mem_blk_feats (t : Fin cfg0.N) (i : S1000000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v0_0).slice (win0_2.rect t)).set ↔ _
  rw [View.set_slice_whole, Rect.mem_set_unit]
  exact Iff.rfl

/-- Every index of the feature output is in the block of the point `row / 8000`. -/
theorem cover_feats (i : S1000000x64.Idx) :
    ∃ t : Fin cfg0.N, (cfg0.win 2).flush t = true ∧ i ∈ ((cfg0.win 2).blk t).view.set := by
  have hi0 : (i 0).val < 1000000 := (i 0).isLt
  have hi1 : (i 1).val < 64 := (i 1).isLt
  have hN : cfg0.N = 125 := N_0
  have ht : (i 0).val / 8000 < cfg0.N := by omega
  obtain ⟨-, -, -, -, e20, e21, -⟩ := idx_facts ⟨(i 0).val / 8000, ht⟩
  refine ⟨⟨(i 0).val / 8000, ht⟩, flush0_2 _, ?_⟩
  rw [mem_blk_feats]
  intro a
  match a with
  | ⟨0, _⟩ =>
    show win0_2.index ⟨(i 0).val / 8000, ht⟩ (0 : Fin 2) * 8000 ≤ (i 0).val ∧ (i 0).val < win0_2.index ⟨(i 0).val / 8000, ht⟩ (0 : Fin 2) * 8000 + 8000
    have e : win0_2.index ⟨(i 0).val / 8000, ht⟩ (0 : Fin 2) = (i 0).val / 8000 := e20
    omega
  | ⟨1, _⟩ =>
    show win0_2.index ⟨(i 0).val / 8000, ht⟩ (1 : Fin 2) * 64 ≤ (i 1).val ∧ (i 1).val < win0_2.index ⟨(i 0).val / 8000, ht⟩ (1 : Fin 2) * 64 + 64
    omega

/-- After the region the feature output holds the cropped features of the arguments. -/
theorem final_feats (c : Dev nD) :
    (dats m 0 c).arrAt 2 cfg0.N = Cert.Crop.feats (V m c main_arg0) (V m c main_arg1) :=
  (dats m 0 c).arrAt_eq_of_cover 2 _ (fun t _ => flushed_feats m c t) cover_feats

/-! ## The word output -/

/-- What point `t` writes back to the word output is block `t` of the mask words of the coordinate argument. -/
theorem flushed_words (c : Dev nD) (t : Fin cfg0.N) :
    (dats m 0 c).flushed 3 t
      = ((cfg0.win 3).blk t).view.read (Elt Ideal) (Cert.Crop.maskWords (V m c main_arg0)) := by
  show (cfg0.win 3).cut (grid0.coords t) ((dats m 0 c).after 3 t) = _
  rw [after0_3]
  unfold out0_3
  rw [View.canon_unit_zero hz]
  simp only [View.ld_unit_zero (S := S8000x4) hz]
  obtain ⟨-, -, -, -, -, -, e30, e31⟩ := idx_facts t
  funext j
  exact words_block (V m c main_arg0) (iblk m c 0 t) t.val (point_lt t)
    (fun p k => coords_block m c t p k) j (((cfg0.win 3).blk t).view.emb j)
    (by show win0_3.index t (0 : Fin 2) * 8000 + 1 * (j 0).val = t.val * 8000 + (j 0).val; omega)

theorem mem_blk_words (t : Fin cfg0.N) (i : S1000000x1.Idx) :
    i ∈ ((cfg0.win 3).blk t).view.set ↔ ∀ a : Fin 2, win0_3.index t a * S8000x1.size a ≤ (i a).val ∧ (i a).val < win0_3.index t a * S8000x1.size a + S8000x1.size a := by
  show i ∈ ((View.whole main_v0_1).slice (win0_3.rect t)).set ↔ _
  rw [View.set_slice_whole, Rect.mem_set_unit]
  exact Iff.rfl

theorem cover_words (i : S1000000x1.Idx) :
    ∃ t : Fin cfg0.N, (cfg0.win 3).flush t = true ∧ i ∈ ((cfg0.win 3).blk t).view.set := by
  have hi0 : (i 0).val < 1000000 := (i 0).isLt
  have hi1 : (i 1).val < 1 := (i 1).isLt
  have hN : cfg0.N = 125 := N_0
  have ht : (i 0).val / 8000 < cfg0.N := by omega
  obtain ⟨-, -, -, -, -, -, e30, e31⟩ := idx_facts ⟨(i 0).val / 8000, ht⟩
  refine ⟨⟨(i 0).val / 8000, ht⟩, flush0_3 _, ?_⟩
  rw [mem_blk_words]
  intro a
  match a with
  | ⟨0, _⟩ =>
    show win0_3.index ⟨(i 0).val / 8000, ht⟩ (0 : Fin 2) * 8000 ≤ (i 0).val ∧ (i 0).val < win0_3.index ⟨(i 0).val / 8000, ht⟩ (0 : Fin 2) * 8000 + 8000
    have e : win0_3.index ⟨(i 0).val / 8000, ht⟩ (0 : Fin 2) = (i 0).val / 8000 := e30
    omega
  | ⟨1, _⟩ =>
    show win0_3.index ⟨(i 0).val / 8000, ht⟩ (1 : Fin 2) * 1 ≤ (i 1).val ∧ (i 1).val < win0_3.index ⟨(i 0).val / 8000, ht⟩ (1 : Fin 2) * 1 + 1
    omega

/-- After the region the word output holds the mask words of the coordinate argument. -/
theorem final_words (c : Dev nD) :
    (dats m 0 c).arrAt 3 cfg0.N = Cert.Crop.maskWords (V m c main_arg0) :=
  (dats m 0 c).arrAt_eq_of_cover 3 _ (fun t _ => flushed_words m c t) cover_words

/-! ## The lines after the region -/

/-- The second result, after the lines that follow the region, is the mask of the coordinate argument. -/
theorem tail_mask (c : Dev nD) :
    Pipeline.afterTail₀ cfgs (dats m) 0 (V0 m) [hostOps1] c main_v4 = Cert.Crop.mask (V m c main_arg0) := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.tc.devRef main_v0_1) = Cert.Crop.maskWords (V m c main_arg0) :=
    (Pipeline.withArrays_arr spec0 launch0.win.arr_inj c _ _ 3).trans (final_words m c)
  funext r
  show IntOp.cmpi .ne (shapeCast S1000000 (Pipeline.withArrays (cfgs 0).spec c (V0 m c)
      (fun w => (dats m 0 c).arrAt w (cfgs 0).N) (Proc.tc.devRef main_v0_1)) shapeCasts_S1000000x1_S1000000 r) 0#32
    = Cert.Crop.keepRow (V m c main_arg0) (r 0)
  rw [hw, shapeCast_apply (Cert.Crop.maskWords (V m c main_arg0)) shapeCasts_S1000000x1_S1000000 r
    (ix2 (n0 := 1000000) (r 0) (0 : Fin 1)) (by rw [Shape.rowMajor_val_two, Shape.rowMajor_val_one]; show (r 0).val * 1 + 0 = (r 0).val; omega)]
  exact Cert.Crop.ne_zero_widen _

/-! ## The run -/

/-- Every weakly fair execution of the kernel's program terminates with the first result at the cropped features of
    the arguments, the second at their mask, and the arguments unchanged. -/
theorem run : θ_run defs (onTc (τ := τ) (main (F := Ideal))) ⟨m, fun _ => 0, ρ⟩ fun r => ∀ c : Dev nD,
      r.2.mem ((c.tc : Thread nD τ).loc main_v0_0)
        = Cert.Crop.feats (m ((c.tc : Thread nD τ).loc main_arg0)) (m ((c.tc : Thread nD τ).loc main_arg1))
      ∧ r.2.mem ((c.tc : Thread nD τ).loc main_v4) = Cert.Crop.mask (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 2).trans ((final_feats m c).trans (by rw [V_main_arg0, V_main_arg1])),
      ((h c).2 main_v4 (Pipeline.mem_restRefs_of main_v4 rfl (by decide))).trans
        ((tail_mask m c).trans (by rw [V_main_arg0])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelCrop

end
-- ==== Proof.RefCrop.lean ====
/-
  The reference's two results are the specification's two functions.

  The reference slices the three spatial columns out of the coordinate array, tests every word against 10 and 90,
  conjoins the two tests of a word, and folds the three words of a row with the bitwise and from the neutral bit.
  A fold over an axis of extent 3 is three applications of the operation; re-associating them gives the keep bit
  of the row. The features are then multiplied, entry by entry, by that bit converted unsigned to a number.
-/
import proofs.«163686_j42279658062072_1_alg».proof.Proof.Gen.ReferenceIdeal.Read
import proofs.«163686_j42279658062072_1_alg».proof.Proof.CropSpec

noncomputable section

namespace Cert.RefCrop

open Cert.ReferenceIdeal Cert.ReferenceIdeal.Gen Cert.ReferenceIdeal.Read
open Idealize.ShloMosaic Idealize.ShloMosaic.ValueIdx

/-- Column `k` of the sliced coordinates is column `k` of the coordinates. -/
theorem slice_idx (p : Fin 1000000) (k : Fin 3) :
    idx_main_v0 (ix2 p k) = ix2 p (Fin.castLE (by decide : 3 ≤ 4) k) := by
  funext a; match a with | ⟨0, _⟩ => rfl | ⟨1, _⟩ => rfl

/-- The conjoined pair of tests at (row `p`, spatial column `k`) is the range test of that coordinate word. -/
theorem box_at (x0 : Cert.Crop.Coords) (p : Fin 1000000) (k : Fin 3) :
    val_main_v7 (F := Ideal) x0 (ix2 p k) = Cert.Crop.inBox (x0 (ix2 p (Fin.castLE (by decide : 3 ≤ 4) k))) := by
  rw [val_main_v7_apply, val_main_v3_apply, val_main_v6_apply, val_main_v0_apply, val_main_v2_apply, val_main_v1_apply,
    val_main_c_apply, val_main_v5_apply, val_main_v4_apply, val_main_c_0_apply, slice_idx]
  rfl

/-- The source index over row `r` with coordinate `k` on the folded axis is (r, k). -/
theorem lift_eq (h : S1000000x3.Reduces [1] S1000000) (r : S1000000.Idx) (k : Fin 3) :
    h.lift r k = ix2 (n0 := 1000000) (r 0) k := by
  funext a; apply Fin.ext; match a with | ⟨0, _⟩ => rfl | ⟨1, _⟩ => rfl

/-- The folded conjunction at row `r` is the keep bit of the row. -/
theorem keep_at (x0 : Cert.Crop.Coords) (r : S1000000.Idx) :
    val_main_v8 (F := Ideal) x0 r = Cert.Crop.keepRow x0 (r 0) := by
  unfold val_main_v8
  have h : S1000000x3.Reduces [1] S1000000 := by decide
  refine (Host.reduce_eq_fold_single IntOp.andi (val_main_v7 (F := Ideal) x0) (val_main_c_1 (F := Ideal))
    reducesTo_S1000000x3_S1000000_d1 h h_S_ r).trans ?_
  refine (Cert.Crop.fold_fin3 IntOp.andi _ _).trans ?_
  unfold Cert.Crop.keepRow
  rw [Cert.Crop.keepW_eq_boxes]
  have e : ∀ k : Fin 3, (val_main_v7 (F := Ideal) x0 ∘ h.lift r) k
      = Cert.Crop.inBox (x0 (ix2 (n0 := 1000000) (r 0) (Fin.castLE (by decide : 3 ≤ 4) k))) := fun k => by
    show val_main_v7 (F := Ideal) x0 (h.lift r k) = _
    rw [lift_eq]
    exact box_at x0 (r 0) k
  exact congrArg₂ IntOp.andi (e 0) (congrArg₂ IntOp.andi (e 1) (congrArg₂ IntOp.andi (e 2) rfl))

/-- The reference's mask is the specification's. -/
theorem mask_eq (x0 : Cert.Crop.Coords) : val_main_v8 (F := Ideal) x0 = Cert.Crop.mask x0 :=
  funext fun r => keep_at x0 r

/-- The reference's features are the specification's: entry [r, j] times row `r`'s keep bit read unsigned. -/
theorem feats_eq (x0 : Cert.Crop.Coords) (x1 : FVec Ideal S1000000x64 .f32) :
    val_main_v12 (F := Ideal) x0 x1 = Cert.Crop.feats x0 x1 := by
  funext i
  rw [val_main_v12_apply, val_main_v11_apply, val_main_v10_apply, val_main_v9_apply, keep_at]
  rfl

end Cert.RefCrop

end
-- ==== Proof.lean ====
/-
  A sparse crop against its array reference, over the extended reals.

  Both programs take a million points — four coordinate words and 64 features each — and return the features with the
  rows of dropped points zeroed, and the keep mask. A point is kept when its three spatial words all lie in [10, 90).

  The kernel walks the points 8000 rows at a time: per block it forms the keep bit of every row by six comparisons
  conjoined from the left, multiplies the feature block by the bit (widened to a word and converted to a number) and
  writes the bit out as a word; after the region the word column is flattened and compared with zero to give the mask.
  The reference tests the three spatial columns at once, folds the three tests of a row with the bitwise and, converts the
  bit to a number and multiplies.

  The two agree because (i) the bitwise and is associative, so the six tests conjoined from the left are the three
  per-word tests folded from the neutral bit; (ii) a bit widened to a word and read signed is the bit read unsigned, so
  both factors are the same 0 or 1; (iii) a widened bit differs from zero exactly when it is set. The product itself is
  the same product on both sides, so nothing is asked of the feature values: the precondition is never opened.
  Nothing was rewritten between the kernel and its idealization, so that conjunct holds trivially.
-/
import proofs.«163686_j42279658062072_1_alg».proof.Defs
import proofs.«163686_j42279658062072_1_alg».proof.Proof.Gen.Kernel
import proofs.«163686_j42279658062072_1_alg».proof.Proof.Gen.Kernel.Skeleton
import proofs.«163686_j42279658062072_1_alg».proof.Proof.Gen.Kernel.Launch
import proofs.«163686_j42279658062072_1_alg».proof.Proof.Gen.Kernel.Points
import proofs.«163686_j42279658062072_1_alg».proof.Proof.Gen.Kernel.Frame
import proofs.«163686_j42279658062072_1_alg».proof.Proof.Gen.KernelIdeal
import proofs.«163686_j42279658062072_1_alg».proof.Proof.Gen.KernelIdeal.Skeleton
import proofs.«163686_j42279658062072_1_alg».proof.Proof.Gen.KernelIdeal.Launch
import proofs.«163686_j42279658062072_1_alg».proof.Proof.Gen.KernelIdeal.Points
import proofs.«163686_j42279658062072_1_alg».proof.Proof.Gen.KernelIdeal.Frame
import proofs.«163686_j42279658062072_1_alg».proof.Proof.Gen.ReferenceIdeal
import proofs.«163686_j42279658062072_1_alg».proof.Proof.Gen.Pre_finite_inputs
import proofs.«163686_j42279658062072_1_alg».proof.Proof.Gen.ReferenceIdeal.Run
import proofs.«163686_j42279658062072_1_alg».proof.Proof.Gen.ReferenceIdeal.Read
import proofs.«163686_j42279658062072_1_alg».proof.Proof.KernelValue
import proofs.«163686_j42279658062072_1_alg».proof.Proof.RefCrop
import Idealize.ShloMosaic.Adequacy
import Idealize.ShloMosaic.Init

noncomputable section

namespace Cert.Proof

open Idealize.ShloMosaic Idealize.ShloMosaic.TcCoe Idealize.SL.Sem

/-- The kernel as printed terminates and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the cropped features and the mask of the (agreeing) arguments. -/
theorem algebraic : Cert.algebraic_KernelIdeal_ReferenceIdeal := by
  intro m ρ m' ρ' _ hagree
  refine ⟨fun c => Cert.Crop.feats (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Crop.mask (m ((c.tc : Thread Cert.KernelIdeal.nD Cert.KernelIdeal.τ).loc Cert.KernelIdeal.main_arg0)),
    Cert.KernelCrop.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v12_eq, Cert.RefCrop.feats_eq, (hagree c).1, (hagree c).2]
  · rw [(h c).2.1, Cert.ReferenceIdeal.Read.val_main_v8_eq, Cert.RefCrop.mask_eq, (hagree c).1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
